-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x200000x18 : Shape := ⟨3, ![16, 200000, 18]⟩
abbrev S3 : Shape := ⟨1, ![3]⟩
abbrev S_ : Shape := ⟨0, ![]⟩

class Facts : Prop where
  bcast_S_S16x200000x18 : S_.BroadcastsInDim S16x200000x18 (![] : Fin 0 → Fin S16x200000x18.rank)
  reducesTo_S16x200000x18_S_d0_1_2 : S16x200000x18.ReducesTo [0, 1, 2] S_
  h_S_ : 0 < S_.numel
  bcast_S_S3 : S_.BroadcastsInDim S3 (![] : Fin 0 → Fin S3.rank)
  reducesTo_S3_S_d0 : S3.ReducesTo [0] S_

variable [Facts]

def fn {F : FTy → Type} [FloatOps F] (main_arg0 : FVec F S16x200000x18 .f32) (main_arg1 : FVec F S3 .f32) : IVec S_ 1 :=
  let main_v0 : FVec F S16x200000x18 .f32 := Host.absf main_arg0
  let main_cst : FVec F S_ .f32 := constant S_ .f32 0x7F800000#32
  let main_v1 : FVec F S16x200000x18 .f32 := broadcastInDim S16x200000x18 ![] bcast_S_S16x200000x18 main_cst
  let main_v2 : IVec S16x200000x18 1 := cmpf .olt main_v0 main_v1
  let main_c : IVec S_ 1 := constantI S_ 1 1#1
  let main_v3 : IVec S_ 1 := (fun x v => Host.reduce IntOp.andi x v reducesTo_S16x200000x18_S_d0_1_2 h_S_) main_v2 main_c
  let main_v4 : FVec F S3 .f32 := Host.absf main_arg1
  let main_cst_0 : FVec F S_ .f32 := constant S_ .f32 0x7F800000#32
  let main_v5 : FVec F S3 .f32 := broadcastInDim S3 ![] bcast_S_S3 main_cst_0
  let main_v6 : IVec S3 1 := cmpf .olt main_v4 main_v5
  let main_c_1 : IVec S_ 1 := constantI S_ 1 1#1
  let main_v7 : IVec S_ 1 := (fun x v => Host.reduce IntOp.andi x v reducesTo_S3_S_d0 h_S_) main_v6 main_c_1
  let main_v8 : IVec S_ 1 := andi main_v3 main_v7
  main_v8
-- ==== Kernel.lean ====
abbrev S16x200000x18 : Shape := ⟨3, ![16, 200000, 18]⟩
abbrev S3 : Shape := ⟨1, ![3]⟩
abbrev S3200000x18 : Shape := ⟨2, ![3200000, 18]⟩
abbrev S3200000x3 : Shape := ⟨2, ![3200000, 3]⟩
abbrev S4000x18 : Shape := ⟨2, ![4000, 18]⟩
abbrev S4000x3 : Shape := ⟨2, ![4000, 3]⟩
abbrev S4000 : Shape := ⟨1, ![4000]⟩
abbrev S4000x1 : Shape := ⟨2, ![4000, 1]⟩
abbrev S1 : Shape := ⟨1, ![1]⟩
abbrev S1x1 : Shape := ⟨2, ![1, 1]⟩
abbrev S16x200000x3 : Shape := ⟨3, ![16, 200000, 3]⟩

abbrev nBuf : Space → Nat
  | .hbm => 5
  | .vmem => 5
  | .smem => 0
  | _ => 0

abbrev bufTy : (tb : Table) → Fin (tcTables nBuf tb) → BufTy
  | .hbm, ⟨0, _⟩ => ⟨S16x200000x18, .f32⟩
  | .hbm, ⟨1, _⟩ => ⟨S3, .f32⟩
  | .hbm, ⟨2, _⟩ => ⟨S3200000x18, .f32⟩
  | .hbm, ⟨3, _⟩ => ⟨S3200000x3, .f32⟩
  | .hbm, ⟨4, _⟩ => ⟨S16x200000x3, .f32⟩
  | .local _ .vmem, ⟨0, _⟩ => ⟨S4000x18, .f32⟩
  | .local _ .vmem, ⟨1, _⟩ => ⟨S4000x18, .f32⟩
  | .local _ .vmem, ⟨2, _⟩ => ⟨S3, .f32⟩
  | .local _ .vmem, ⟨3, _⟩ => ⟨S4000x3, .f32⟩
  | .local _ .vmem, ⟨4, _⟩ => ⟨S4000x3, .f32⟩
  | _, _ => ⟨S16x200000x18, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![800], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x18 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x200000x18_S3200000x18 : S16x200000x18.ShapeCasts S3200000x18
  inb_S4000x18_S4000x18_0_0 : ∀ a, (![0, 0] : Fin 2 → Nat) a + S4000x18.size a ≤ S4000x18.size a
  h_S4000x18 : 0 < S4000x18.numel
  shapeCasts_S4000x18_S4000x18 : S4000x18.ShapeCasts S4000x18
  slices_S4000x18_o0_0_S4000x3 : S4000x18.Slices ![0, 0] S4000x3
  slices_S4000x18_o0_3_S4000x3 : S4000x18.Slices ![0, 3] S4000x3
  slices_S4000x18_o0_6_S4000x3 : S4000x18.Slices ![0, 6] S4000x3
  reduces_S4000x3_S4000 : S4000x3.Reduces [1] S4000
  shapeCasts_S4000_S4000x1 : S4000.ShapeCasts S4000x1
  inb_S3_S3_0 : ∀ a, (![0] : Fin 1 → Nat) a + S3.size a ≤ S3.size a
  h_S3 : 0 < S3.numel
  slices_S3_o0_S1 : S3.Slices ![0] S1
  shapeCasts_S1_S1x1 : S1.ShapeCasts S1x1
  broadcasts_S1x1_S4000x1 : S1x1.Broadcasts S4000x1
  inb_S4000x3_S4000x1_0_0 : ∀ a, (![0, 0] : Fin 2 → Nat) a + S4000x1.size a ≤ S4000x3.size a
  h_S4000x1 : 0 < S4000x1.numel
  slices_S3_o1_S1 : S3.Slices ![1] S1
  inb_S4000x3_S4000x1_0_1 : ∀ a, (![0, 1] : Fin 2 → Nat) a + S4000x1.size a ≤ S4000x3.size a
  slices_S3_o2_S1 : S3.Slices ![2] S1
  inb_S4000x3_S4000x1_0_2 : ∀ a, (![0, 2] : Fin 2 → Nat) a + S4000x1.size a ≤ S4000x3.size a
  shapeCasts_S3200000x3_S16x200000x3 : S3200000x3.ShapeCasts S16x200000x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x18.size a ≤ S3200000x18.size a
  hwx0_0 : ∀ i : grid0.Coords, EltTy.bits .f32 = 32 ∨ (Rect.block (s := S3200000x18) S4000x18.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3.size a ≤ S3.size a
  hwx0_1 : ∀ i : grid0.Coords, EltTy.bits .f32 = 32 ∨ (Rect.block (s := S3) S3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x3.size a ≤ S3200000x3.size a
  hwx0_2 : ∀ i : grid0.Coords, EltTy.bits .f32 = 32 ∨ (Rect.block (s := S3200000x3) S4000x3.size (cc0_transform_2 i) (hinb0_2 i)).WholeWords (EltTy.packing .f32)

variable [Facts₀]

abbrev win0_0 : Pipeline.Window sig grid0 :=
  Pipeline.Window.ofSpec (Memref.whole main_v0) S4000x18.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4000x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x200000x18 : Shape := ⟨3, ![16, 200000, 18]⟩
abbrev S3 : Shape := ⟨1, ![3]⟩
abbrev S16x200000x9 : Shape := ⟨3, ![16, 200000, 9]⟩
abbrev S16x200000x3x3 : Shape := ⟨4, ![16, 200000, 3, 3]⟩
abbrev S16x200000x1x3 : Shape := ⟨4, ![16, 200000, 1, 3]⟩
abbrev S16x200000x3 : Shape := ⟨3, ![16, 200000, 3]⟩
abbrev S_ : Shape := ⟨0, ![]⟩
abbrev S1x1x3 : Shape := ⟨3, ![1, 1, 3]⟩

abbrev nBuf : Space → Nat
  | .hbm => 30
  | .vmem => 0
  | .smem => 0
  | _ => 0

abbrev bufTy : (tb : Table) → Fin (tcTables nBuf tb) → BufTy
  | .hbm, ⟨0, _⟩ => ⟨S16x200000x18, .f32⟩
  | .hbm, ⟨1, _⟩ => ⟨S3, .f32⟩
  | .hbm, ⟨2, _⟩ => ⟨S16x200000x9, .f32⟩
  | .hbm, ⟨3, _⟩ => ⟨S16x200000x3x3, .f32⟩
  | .hbm, ⟨4, _⟩ => ⟨S16x200000x1x3, .f32⟩
  | .hbm, ⟨5, _⟩ => ⟨S16x200000x3, .f32⟩
  | .hbm, ⟨6, _⟩ => ⟨S16x200000x1x3, .f32⟩
  | .hbm, ⟨7, _⟩ => ⟨S16x200000x3, .f32⟩
  | .hbm, ⟨8, _⟩ => ⟨S16x200000x3, .f32⟩
  | .hbm, ⟨9, _⟩ => ⟨S16x200000x1x3, .f32⟩
  | .hbm, ⟨10, _⟩ => ⟨S16x200000x3, .f32⟩
  | .hbm, ⟨11, _⟩ => ⟨S16x200000x1x3, .f32⟩
  | .hbm, ⟨12, _⟩ => ⟨S16x200000x3, .f32⟩
  | .hbm, ⟨13, _⟩ => ⟨S16x200000x3, .f32⟩
  | .hbm, ⟨14, _⟩ => ⟨S16x200000x1x3, .f32⟩
  | .hbm, ⟨15, _⟩ => ⟨S16x200000x3, .f32⟩
  | .hbm, ⟨16, _⟩ => ⟨S16x200000x1x3, .f32⟩
  | .hbm, ⟨17, _⟩ => ⟨S16x200000x3, .f32⟩
  | .hbm, ⟨18, _⟩ => ⟨S16x200000x3, .f32⟩
  | .hbm, ⟨19, _⟩ => ⟨S16x200000x1x3, .f32⟩
  | .hbm, ⟨20, _⟩ => ⟨S16x200000x1x3, .f32⟩
  | .hbm, ⟨21, _⟩ => ⟨S16x200000x1x3, .f32⟩
  | .hbm, ⟨22, _⟩ => ⟨S16x200000x3x3, .f32⟩
  | .hbm, ⟨23, _⟩ => ⟨S16x200000x3x3, .f32⟩
  | .hbm, ⟨24, _⟩ => ⟨S_, .f32⟩
  | .hbm, ⟨25, _⟩ => ⟨S16x200000x3, .f32⟩
  | .hbm, ⟨26, _⟩ => ⟨S16x200000x3, .f32⟩
  | .hbm, ⟨27, _⟩ => ⟨S1x1x3, .f32⟩
  | .hbm, ⟨28, _⟩ => ⟨S16x200000x3, .f32⟩
  | .hbm, ⟨29, _⟩ => ⟨S16x200000x3, .f32⟩
  | _, _ => ⟨S16x200000x18, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩

abbrev nD : Nat := 1
abbrev τ : Topo := Topo.v7x

variable {F : FTy → Type} [FloatOps F]

class Facts₀ : Prop where
  slices_S16x200000x18_S16x200000x9_0_0_0 : S16x200000x18.Slices ![0, 0, 0] S16x200000x9
  shapeCasts_S16x200000x9_S16x200000x3x3 : S16x200000x9.ShapeCasts S16x200000x3x3
  slices_S16x200000x3x3_S16x200000x1x3_0_0_0_0 : S16x200000x3x3.Slices ![0, 0, 0, 0] S16x200000x1x3
  shapeCasts_S16x200000x1x3_S16x200000x3 : S16x200000x1x3.ShapeCasts S16x200000x3
  slices_S16x200000x3x3_S16x200000x1x3_0_0_1_0 : S16x200000x3x3.Slices ![0, 0, 1, 0] S16x200000x1x3
  slices_S16x200000x3x3_S16x200000x1x3_0_0_2_0 : S16x200000x3x3.Slices ![0, 0, 2, 0] S16x200000x1x3
  bcast_S16x200000x3_S16x200000x1x3_0_1_3 : S16x200000x3.BroadcastsInDim S16x200000x1x3 (![0, 1, 3] : Fin 3 → Fin S16x200000x1x3.rank)
  concatenates_S16x200000x1x3_S16x200000x1x3_S16x200000x1x3_S16x200000x3x3_d2 : Shape.Concatenates [S16x200000x1x3, S16x200000x1x3, S16x200000x1x3] S16x200000x3x3 2
  reducesTo_S16x200000x3x3_S16x200000x3_d3 : S16x200000x3x3.ReducesTo [3] S16x200000x3
  h_S_ : 0 < S_.numel
  bcast_S3_S1x1x3_2 : S3.BroadcastsInDim S1x1x3 (![2] : Fin 1 → Fin S1x1x3.rank)
  bcast_S1x1x3_S16x200000x3_0_1_2 : S1x1x3.BroadcastsInDim S16x200000x3 (![0, 1, 2] : Fin 3 → Fin S16x200000x3.rank)

variable [Facts₀]

class Facts : Prop extends Facts₀ where

variable [Facts]
-- ==== Proof.Spec.lean ====
/-
  The mathematics shared by both programs.

  A water molecule is a row of 18 channels; its three atoms' positions are channels 0-2, 3-5 and 6-8
  (atom p, Cartesian coordinate k at channel 3p + k); the other nine channels are never read.
  For p = 0, 1, 2 the result holds the Euclidean distance from atom p to the next atom around the
  triangle (0 -> 1 -> 2 -> 0), less the p-th entry of the length table l:

      out[.., p] = sqrt (sum over k < 3 of (row[3p + k] - row[3 nxt(p) + k])^2) - l[p].

  `dist` is that distance on the extended reals, written with the square as a product, as both
  programs compute it. `block`, `flat` and `whole` are the same function of the index over a
  block of 4000 molecules, over all 3 200 000 molecules as one list, and over the [16, 200000]
  arrangement of the same molecules. The last two differ by the row-major re-indexing only
  (`whole_eq_shapeCast_flat`). No law of the extended reals beyond reflexivity is needed for the
  kernel, and only `0 + s = s` for the reference, so the finiteness of the inputs is never used.
-/
import Idealize.ShloMosaic.PureOps.Ideal
import Idealize.ShloMosaic.PureOps.Ideal.Laws
import Idealize.ShloMosaic.Lib.ValueIdx
import Idealize.ShloMosaic.Lib.Pipeline.Value

noncomputable section

namespace Cert.Bonds

open Idealize.ShloMosaic Idealize.ShloMosaic.ValueIdx

/-! ## Shapes, spelt literally -/

abbrev Mol18 : Shape := ⟨3, ![16, 200000, 18]⟩
abbrev Mol3 : Shape := ⟨3, ![16, 200000, 3]⟩
abbrev Flat18 : Shape := ⟨2, ![3200000, 18]⟩
abbrev Flat3 : Shape := ⟨2, ![3200000, 3]⟩
abbrev Blk18 : Shape := ⟨2, ![4000, 18]⟩
abbrev Blk3 : Shape := ⟨2, ![4000, 3]⟩
abbrev Blk : Shape := ⟨1, ![4000]⟩
abbrev Blk1 : Shape := ⟨2, ![4000, 1]⟩
abbrev Len3 : Shape := ⟨1, ![3]⟩
abbrev Len1 : Shape := ⟨1, ![1]⟩
abbrev Len11 : Shape := ⟨2, ![1, 1]⟩

/-! ## One molecule -/

/-- The channel of Cartesian coordinate `k` of atom `p`: `3p + k`. -/
def chan (p k : Fin 3) : Fin 18 := ⟨3 * p.val + k.val, by have := p.isLt; have := k.isLt; omega⟩

/-- The atom after `p` around the triangle. -/
def nxt (p : Fin 3) : Fin 3 := ⟨(p.val + 1) % 3, Nat.mod_lt _ (by decide)⟩

/-- The distance between atoms `p` and `p'` of a molecule given as its row of channels. -/
def dist (row : Fin 18 → EReal) (p p' : Fin 3) : EReal :=
  Ideal.sqrt (∑ k : Fin 3, (row (chan p k) - row (chan p' k)) * (row (chan p k) - row (chan p' k)))

/-- Entry `p` of a molecule's result: its `p`-th side less the `p`-th tabulated length. -/
def entry (row : Fin 18 → EReal) (l : Len3.Idx → EReal) (p : Fin 3) : EReal :=
  dist row p (nxt p) - l (ix1 p)

/-! ## The three arrangements -/

/-- Over a block of 4000 molecules. -/
def block (xb : FVec Ideal Blk18 .f32) (l : FVec Ideal Len3 .f32) : FVec Ideal Blk3 .f32 :=
  fun i => entry (fun ch => xb (ix2 (i 0) ch)) l (i 1)

/-- Over all molecules as one list. -/
def flat (xf : FVec Ideal Flat18 .f32) (l : FVec Ideal Len3 .f32) : FVec Ideal Flat3 .f32 :=
  fun i => entry (fun ch => xf (ix2 (i 0) ch)) l (i 1)

/-- Over the [16, 200000] arrangement. -/
def whole (x : FVec Ideal Mol18 .f32) (l : FVec Ideal Len3 .f32) : FVec Ideal Mol3 .f32 :=
  fun i => entry (fun ch => x (ix3 (i 0) (i 1) ch)) l (i 2)

/-- A block of the list form is the block form of the rows under it: molecule `r` of the block is molecule `s` of
    the list (`h0`), and the length table is the same (`hl`). Stated over plain vectors and explicit coordinates. -/
theorem block_eq_flat_at (X0 : FVec Ideal Blk18 .f32) (X1 : FVec Ideal Len3 .f32) (A0 : FVec Ideal Flat18 .f32)
    (A1 : FVec Ideal Len3 .f32) (r : Fin 4000) (s : Fin 3200000) (p : Fin 3)
    (h0 : ∀ ch : Fin 18, X0 (ix2 r ch) = A0 (ix2 s ch))
    (hl : ∀ p : Fin 3, X1 (ix1 p) = A1 (ix1 p)) : block X0 X1 (ix2 r p) = flat A0 A1 (ix2 s p) := by
  show entry (fun ch => X0 (ix2 r ch)) X1 p = entry (fun ch => A0 (ix2 s ch)) A1 p
  unfold entry
  rw [show (fun ch => X0 (ix2 r ch)) = fun ch => A0 (ix2 s ch) from funext h0, hl]

/-- The [16, 200000] arrangement is the list form re-indexed row-major on both sides: molecule `(b, n)` is
    molecule `200000 b + n` of the list. -/
theorem whole_eq_shapeCast_flat (x : FVec Ideal Mol18 .f32) (l : FVec Ideal Len3 .f32)
    (h1 : Mol18.ShapeCasts Flat18) (h2 : Flat3.ShapeCasts Mol3) :
    shapeCast Mol3 (flat (shapeCast Flat18 x h1) l) h2 = whole x l := by
  funext i
  obtain ⟨b, n, p, rfl⟩ : ∃ (b : Fin 16) (n : Fin 200000) (p : Fin 3), i = ix3 b n p := ⟨i 0, i 1, i 2, eq_ix3 i⟩
  have hb : b.val < 16 := b.isLt
  have hn : n.val < 200000 := n.isLt
  have hp : p.val < 3 := p.isLt
  refine (shapeCast_apply _ h2 (ix3 b n p) (ix2 (⟨b.val * 200000 + n.val, by omega⟩ : Fin 3200000) p) (by
    rw [Shape.rowMajor_val_two, Shape.rowMajor_val_three]
    show (b.val * 200000 + n.val) * 3 + p.val = (b.val * 200000 + n.val) * 3 + p.val
    rfl)).trans ?_
  show entry (fun ch => shapeCast Flat18 x h1 (ix2 (⟨b.val * 200000 + n.val, _⟩ : Fin 3200000) ch)) l p
    = entry (fun ch => x (ix3 b n ch)) l p
  congr 1
  funext ch
  have hc : ch.val < 18 := ch.isLt
  exact shapeCast_apply x h1 _ (ix3 b n ch) (by
    rw [Shape.rowMajor_val_three, Shape.rowMajor_val_two]
    show (b.val * 200000 + n.val) * 18 + ch.val = (b.val * 200000 + n.val) * 18 + ch.val
    rfl)

/-! ## The kernel's vector operations on one block, read at an index -/

/-- Three adjacent channels cut out of a block: the coordinates of one atom. -/
theorem atom_slice_apply (x0 : FVec Ideal Blk18 .f32) (hs : Blk18.ShapeCasts Blk18) (o : Nat) (p : Fin 3)
    (ho : o = 3 * p.val) (h : Blk18.Slices ![0, o] Blk3) (r : Fin 4000) (k : Fin 3) :
    extractStridedSlice Blk3 ![0, o] (shapeCast Blk18 x0 hs) h (ix2 r k) = x0 (ix2 r (chan p k)) := by
  subst ho
  rw [shapeCast_self]
  exact extractStridedSlice_apply _ x0 h (ix2 r k) (ix2 r (chan p k)) (fun a => match a with
    | ⟨0, _⟩ => by show r.val = 0 + r.val; omega
    | ⟨1, _⟩ => by show 3 * p.val + k.val = 3 * p.val + k.val; rfl)

/-- The lane sum of the squared difference of two atoms' coordinates, molecule by molecule. -/
theorem sumsq_apply (x0 : FVec Ideal Blk18 .f32) (hs : Blk18.ShapeCasts Blk18) (o o' : Nat) (p p' : Fin 3)
    (ho : o = 3 * p.val) (ho' : o' = 3 * p'.val) (h : Blk18.Slices ![0, o] Blk3) (h' : Blk18.Slices ![0, o'] Blk3)
    (hr : Blk3.Reduces [1] Blk) (hφ : FKind.Formats .f32) (hacc : (0x00000000#32 : BitVec 32) = FKind.add.neutral .f32 hφ)
    (r : Fin 4000) :
    multiReduction .add [1] Blk
        (mulf (subf (extractStridedSlice Blk3 ![0, o] (shapeCast Blk18 x0 hs) h) (extractStridedSlice Blk3 ![0, o'] (shapeCast Blk18 x0 hs) h'))
          (subf (extractStridedSlice Blk3 ![0, o] (shapeCast Blk18 x0 hs) h) (extractStridedSlice Blk3 ![0, o'] (shapeCast Blk18 x0 hs) h')))
        0x00000000#32 hr hφ hacc (ix1 r)
      = ∑ k : Fin 3, (x0 (ix2 r (chan p k)) - x0 (ix2 r (chan p' k))) * (x0 (ix2 r (chan p k)) - x0 (ix2 r (chan p' k))) := by
  refine (Ideal.multiReduction_add_single _ _ hr hφ hacc (ix1 r)).trans ?_
  refine Finset.sum_congr rfl fun (k : Fin 3) _ => ?_
  have e : hr.lift (ix1 r) k = ix2 r k := funext fun a => Fin.ext (by match a with | ⟨0, _⟩ => rfl | ⟨1, _⟩ => rfl)
  refine (congrArg _ e).trans ?_
  rw [mulf_apply, subf_apply, atom_slice_apply x0 hs o p ho h r k, atom_slice_apply x0 hs o' p' ho' h' r k]

/-- Its square root, kept as a column: the distance between the two atoms. -/
theorem norm_apply (x0 : FVec Ideal Blk18 .f32) (hs : Blk18.ShapeCasts Blk18) (o o' : Nat) (p p' : Fin 3)
    (ho : o = 3 * p.val) (ho' : o' = 3 * p'.val) (h : Blk18.Slices ![0, o] Blk3) (h' : Blk18.Slices ![0, o'] Blk3)
    (hr : Blk3.Reduces [1] Blk) (hφ : FKind.Formats .f32) (hacc : (0x00000000#32 : BitVec 32) = FKind.add.neutral .f32 hφ)
    (hc : Blk.ShapeCasts Blk1) (r : Fin 4000) (q : Fin 1) :
    sqrt (shapeCast Blk1 (multiReduction .add [1] Blk
        (mulf (subf (extractStridedSlice Blk3 ![0, o] (shapeCast Blk18 x0 hs) h) (extractStridedSlice Blk3 ![0, o'] (shapeCast Blk18 x0 hs) h'))
          (subf (extractStridedSlice Blk3 ![0, o] (shapeCast Blk18 x0 hs) h) (extractStridedSlice Blk3 ![0, o'] (shapeCast Blk18 x0 hs) h')))
        0x00000000#32 hr hφ hacc) hc) (ix2 r q)
      = dist (fun ch => x0 (ix2 r ch)) p p' := by
  have hq : q.val < 1 := q.isLt
  show Ideal.sqrt (shapeCast Blk1 _ hc (ix2 r q)) = _
  unfold dist
  refine congrArg Ideal.sqrt ?_
  refine (shapeCast_apply _ hc (ix2 r q) (ix1 r) (by
    rw [Shape.rowMajor_val_one, Shape.rowMajor_val_two]
    show r.val = r.val * 1 + q.val
    omega)).trans ?_
  exact sumsq_apply x0 hs o o' p p' ho ho' h h' hr hφ hacc r

/-- One entry of the length table spread down a column. -/
theorem len_apply (x1 : FVec Ideal Len3 .f32) (o : Nat) (p : Fin 3) (ho : o = p.val) (h : Len3.Slices ![o] Len1)
    (hc : Len1.ShapeCasts Len11) (hb : Len11.Broadcasts Blk1) (r : Fin 4000) (q : Fin 1) :
    broadcastTo Blk1 (shapeCast Len11 (extractStridedSlice Len1 ![o] x1 h) hc) hb (ix2 r q) = x1 (ix1 p) := by
  subst ho
  refine (broadcastTo_apply _ hb (ix2 r q) (ix2 (0 : Fin 1) (0 : Fin 1)) (fun a => match a with
    | ⟨0, _⟩ => (if_pos rfl).symm
    | ⟨1, _⟩ => (if_pos rfl).symm)).trans ?_
  refine (shapeCast_apply _ hc (ix2 (0 : Fin 1) (0 : Fin 1)) (ix1 (0 : Fin 1)) (by
    rw [Shape.rowMajor_val_one, Shape.rowMajor_val_two]; rfl)).trans ?_
  exact extractStridedSlice_apply _ x1 h (ix1 (0 : Fin 1)) (ix1 p) (fun a => match a with
    | ⟨0, _⟩ => by show p.val = p.val + 0; omega)

end Cert.Bonds

end
-- ==== Proof.KernelBlock.lean ====
/-
  What the kernel body leaves in its output block.

  The body loads a block of 4000 molecules and the length table, and makes three column stores: column p of the
  output block receives, molecule by molecule, the distance from atom p to the next atom less l[p]. Each stored
  column is read at an index through the body's vector operations (the lemmas of Spec.lean), and the three
  columns tile the block, so together they leave the block form of the specification.
-/
import proofs.«113861_j36472862277947_1_alg».proof.Proof.Gen.KernelIdeal.Frame
import proofs.«113861_j36472862277947_1_alg».proof.Proof.Spec
import Idealize.ShloMosaic.Lib.Pipeline.Value
import Idealize.ShloMosaic.Lib.ValueIdx

set_option maxRecDepth 16384

noncomputable section

namespace Cert.KernelIdeal.Block

open Cert.KernelIdeal Cert.KernelIdeal.Gen Idealize.ShloMosaic Idealize.ShloMosaic.ValueIdx
open Cert.Bonds (chan nxt dist entry block)

/-! ## The three stored columns, at an index -/

/-- Column 0: atoms 0 and 1, table entry 0. -/
theorem col0_apply (x0 : Vec Ideal S4000x18 .f32) (x1 : Vec Ideal S3 .f32) (r : Fin 4000) (q : Fin 1) :
    k0_pay5 (F := Ideal) x0 x1 (ix2 r q) = entry (fun ch => x0 (ix2 r ch)) x1 (0 : Fin 3) := by
  unfold k0_pay5 k0_pay2 k0_pay3 k0_pay1
  dsimp only
  exact congrArg₂ (· - ·)
    (Cert.Bonds.norm_apply x0 shapeCasts_S4000x18_S4000x18 0 3 (0 : Fin 3) (1 : Fin 3) rfl rfl
      slices_S4000x18_o0_0_S4000x3 slices_S4000x18_o0_3_S4000x3 reduces_S4000x3_S4000 (.inl rfl) rfl shapeCasts_S4000_S4000x1 r q)
    (Cert.Bonds.len_apply x1 0 (0 : Fin 3) rfl slices_S3_o0_S1 shapeCasts_S1_S1x1 broadcasts_S1x1_S4000x1 r q)

/-- Column 1: atoms 1 and 2, table entry 1. -/
theorem col1_apply (x0 : Vec Ideal S4000x18 .f32) (x1 : Vec Ideal S3 .f32) (r : Fin 4000) (q : Fin 1) :
    k0_pay6 (F := Ideal) x0 x1 (ix2 r q) = entry (fun ch => x0 (ix2 r ch)) x1 (1 : Fin 3) := by
  unfold k0_pay6 k0_pay3 k0_pay4 k0_pay1
  dsimp only
  exact congrArg₂ (· - ·)
    (Cert.Bonds.norm_apply x0 shapeCasts_S4000x18_S4000x18 3 6 (1 : Fin 3) (2 : Fin 3) rfl rfl
      slices_S4000x18_o0_3_S4000x3 slices_S4000x18_o0_6_S4000x3 reduces_S4000x3_S4000 (.inl rfl) rfl shapeCasts_S4000_S4000x1 r q)
    (Cert.Bonds.len_apply x1 1 (1 : Fin 3) rfl slices_S3_o1_S1 shapeCasts_S1_S1x1 broadcasts_S1x1_S4000x1 r q)

/-- Column 2: atoms 2 and 0, table entry 2. -/
theorem col2_apply (x0 : Vec Ideal S4000x18 .f32) (x1 : Vec Ideal S3 .f32) (r : Fin 4000) (q : Fin 1) :
    k0_pay7 (F := Ideal) x0 x1 (ix2 r q) = entry (fun ch => x0 (ix2 r ch)) x1 (2 : Fin 3) := by
  unfold k0_pay7 k0_pay4 k0_pay2 k0_pay1
  dsimp only
  exact congrArg₂ (· - ·)
    (Cert.Bonds.norm_apply x0 shapeCasts_S4000x18_S4000x18 6 0 (2 : Fin 3) (0 : Fin 3) rfl rfl
      slices_S4000x18_o0_6_S4000x3 slices_S4000x18_o0_0_S4000x3 reduces_S4000x3_S4000 (.inl rfl) rfl shapeCasts_S4000_S4000x1 r q)
    (Cert.Bonds.len_apply x1 2 (2 : Fin 3) rfl slices_S3_o2_S1 shapeCasts_S1_S1x1 broadcasts_S1x1_S4000x1 r q)

/-! ## The block -/

theorem zeros2 : (![0, 0] : Fin 2 → Nat) = fun _ => 0 := funext fun a => by fin_cases a <;> rfl
theorem zeros1 : (![0] : Fin 1 → Nat) = fun _ => 0 := funext fun a => by fin_cases a; rfl

/-- The three column stores leave the block form of the specification, of the loaded block and table. -/
theorem out_eq_block (x0 : Vec Ideal S4000x18 .f32) (x1 : Vec Ideal S3 .f32) :
    out0_2 (F := Ideal) x0 x1 = block x0 x1 := by
  funext y
  unfold out0_2
  rw [View.ld_unit_zero (S := S4000x18) zeros2, View.ld_unit_zero (S := S3) zeros1]
  refine View.canon_apply_of_pieces (Val := Elt Ideal) (S := S4000x3) (e := .f32) (block x0 x1) _ ?_ y (cover0_2 _ _ _ y)
  intro pc hpc x
  rcases List.mem_cons.mp hpc with rfl | hpc
  · obtain ⟨r, q, rfl⟩ : ∃ (r : Fin 4000) (q : Fin 1), x = ix2 r q := ⟨x 0, x 1, eq_ix2 x⟩
    have hq : q.val < 1 := q.isLt
    show k0_pay7 (F := Ideal) x0 x1 (ix2 r q) = block x0 x1 (r0_4.emb (ix2 r q))
    refine (col2_apply x0 x1 r q).trans ?_
    have e : r0_4.emb (ix2 r q) = ix2 r (2 : Fin 3) := funext fun a => Fin.ext (by
      match a with
      | ⟨0, _⟩ => show 0 + 1 * r.val = r.val; omega
      | ⟨1, _⟩ => show 2 + 1 * q.val = 2; omega)
    rw [e]; rfl
  rcases List.mem_cons.mp hpc with rfl | hpc
  · obtain ⟨r, q, rfl⟩ : ∃ (r : Fin 4000) (q : Fin 1), x = ix2 r q := ⟨x 0, x 1, eq_ix2 x⟩
    have hq : q.val < 1 := q.isLt
    show k0_pay6 (F := Ideal) x0 x1 (ix2 r q) = block x0 x1 (r0_3.emb (ix2 r q))
    refine (col1_apply x0 x1 r q).trans ?_
    have e : r0_3.emb (ix2 r q) = ix2 r (1 : Fin 3) := funext fun a => Fin.ext (by
      match a with
      | ⟨0, _⟩ => show 0 + 1 * r.val = r.val; omega
      | ⟨1, _⟩ => show 1 + 1 * q.val = 1; omega)
    rw [e]; rfl
  rcases List.mem_cons.mp hpc with rfl | hpc
  · obtain ⟨r, q, rfl⟩ : ∃ (r : Fin 4000) (q : Fin 1), x = ix2 r q := ⟨x 0, x 1, eq_ix2 x⟩
    have hq : q.val < 1 := q.isLt
    show k0_pay5 (F := Ideal) x0 x1 (ix2 r q) = block x0 x1 (r0_2.emb (ix2 r q))
    refine (col0_apply x0 x1 r q).trans ?_
    have e : r0_2.emb (ix2 r q) = ix2 r (0 : Fin 3) := funext fun a => Fin.ext (by
      match a with
      | ⟨0, _⟩ => show 0 + 1 * r.val = r.val; omega
      | ⟨1, _⟩ => show 0 + 1 * q.val = 0; omega)
    rw [e]; rfl
  nomatch hpc

end Cert.KernelIdeal.Block

end
-- ==== Proof.KernelValue.lean ====
/-
  The kernel's result array.

  Grid point t stages molecules 4000 t .. 4000 t + 3999 of the list (all 18 channels), the whole length table,
  and writes back rows 4000 t .. 4000 t + 3999 of the [3200000, 3] output. What it writes back is therefore
  block t of the list form of the specification; the 800 blocks tile the output, so after the region the output
  array is the list form of the specification of the list view of x. The host line before the region makes that
  list view by a row-major re-indexing of x, the host line after it re-indexes the output to [16, 200000, 3],
  and the two re-indexings meet in the specification's [16, 200000] form.
-/
import proofs.«113861_j36472862277947_1_alg».proof.Proof.Gen.KernelIdeal.Frame
import proofs.«113861_j36472862277947_1_alg».proof.Proof.KernelBlock
import proofs.«113861_j36472862277947_1_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.RunValue

open Cert.KernelIdeal Cert.KernelIdeal.Gen Idealize.ShloMosaic Idealize.ShloMosaic.TcCoe Idealize.SL.Sem
open Idealize.ShloMosaic.ValueIdx
open Idealize.ShloMosaic.Pipeline (Dat)
open Cert.Bonds (block flat whole)

variable (m : (ℓ : Loc nD τ sig) → Buf (Elt Ideal) ℓ) (ρ : Dev nD → PrngReg)

/-! ## Which block each window is on -/

/-- Decided over the 800 points: the molecule windows are on block t of the rows and block 0 of the channels;
    the length table's window never moves. -/
theorem idx_facts : ∀ t : Fin cfg0.N, win0_0.index t (0 : Fin 2) = t.val ∧ win0_0.index t (1 : Fin 2) = 0
    ∧ win0_2.index t (0 : Fin 2) = t.val ∧ win0_2.index t (1 : Fin 2) = 0 ∧ win0_1.index t (0 : Fin 1) = 0 :=
  (by decide +kernel : ∀ t : Fin grid0.N, _)

/-! ## What a point writes back -/

/-- The staged input blocks, named at their literal types. -/
abbrev xblk (c : Dev nD) (t : Fin cfg0.N) : Vec Ideal S4000x18 .f32 := iblk m c 0 t
abbrev lblk (c : Dev nD) (t : Fin cfg0.N) : Vec Ideal S3 .f32 := iblk m c 1 t
/-- The arrays the region finds. -/
abbrev xarr (c : Dev nD) : Vec Ideal S3200000x18 .f32 := V m c main_v0
abbrev larr (c : Dev nD) : Vec Ideal S3 .f32 := V m c main_arg1

/-- Point t writes back block t of the list form of the specification. -/
theorem flushed_eq (c : Dev nD) (t : Fin cfg0.N) :
    (dats m 0 c).flushed 2 t = ((cfg0.win 2).blk t).view.read (Elt Ideal) (flat (xarr m c) (larr m c)) := by
  show (cfg0.win 2).cut (grid0.coords t) ((dats m 0 c).after 2 t) = _
  rw [after0_2, Cert.KernelIdeal.Block.out_eq_block]
  obtain ⟨e0, e1, e2, e3, e4⟩ := idx_facts t
  funext j
  obtain ⟨r, p, rfl⟩ : ∃ (r : Fin 4000) (p : Fin 3), j = ix2 r p := ⟨j 0, j 1, eq_ix2 j⟩
  have hr : r.val < 4000 := r.isLt
  have hp : p.val < 3 := p.isLt
  have ht : t.val < 800 := lt_of_lt_of_eq t.isLt N_0
  show block (xblk m c t) (lblk m c t) (ix2 r p) = flat (xarr m c) (larr m c) (((cfg0.win 2).blk t).view.emb (ix2 r p))
  have hemb : ((cfg0.win 2).blk t).view.emb (ix2 r p) = ix2 (⟨t.val * 4000 + r.val, by omega⟩ : Fin 3200000) p := by
    funext a; apply Fin.ext
    match a with
    | ⟨0, _⟩ => show win0_2.index t (0 : Fin 2) * 4000 + 1 * r.val = t.val * 4000 + r.val; omega
    | ⟨1, _⟩ => show win0_2.index t (1 : Fin 2) * 3 + 1 * p.val = p.val; omega
  rw [hemb]
  refine Cert.Bonds.block_eq_flat_at (xblk m c t) (lblk m c t) (xarr m c) (larr m c) r _ p (fun ch => ?_) (fun q => ?_)
  · have hc : ch.val < 18 := ch.isLt
    show V m c main_v0 (((cfg0.win 0).blk t).view.emb (ix2 r ch)) = V m c main_v0 (ix2 (⟨t.val * 4000 + r.val, _⟩ : Fin 3200000) ch)
    refine congrArg (V m c main_v0) (funext fun a => Fin.ext ?_)
    match a with
    | ⟨0, _⟩ => show win0_0.index t (0 : Fin 2) * 4000 + 1 * r.val = t.val * 4000 + r.val; omega
    | ⟨1, _⟩ => show win0_0.index t (1 : Fin 2) * 18 + 1 * ch.val = ch.val; omega
  · have hq : q.val < 3 := q.isLt
    show V m c main_arg1 (((cfg0.win 1).blk t).view.emb (ix1 q)) = V m c main_arg1 (ix1 q)
    refine congrArg (V m c main_arg1) (funext fun a => Fin.ext ?_)
    match a with
    | ⟨0, _⟩ => show win0_1.index t (0 : Fin 1) * 3 + 1 * q.val = q.val; omega

/-! ## The blocks tile the output -/

/-- An index is in point t's block iff each coordinate is in the block's range on its axis. -/
theorem mem_blk (t : Fin cfg0.N) (i : S3200000x3.Idx) :
    i ∈ ((cfg0.win 2).blk t).view.set ↔ ∀ a : Fin 2, win0_2.index t a * S4000x3.size a ≤ (i a).val ∧ (i a).val < win0_2.index t a * S4000x3.size a + S4000x3.size a := by
  show i ∈ ((View.whole main_v1).slice (win0_2.rect t)).set ↔ _
  rw [View.set_slice_whole, Rect.mem_set_unit]
  exact Iff.rfl

/-- Row s of the output is written back by point s / 4000. -/
theorem cover (i : S3200000x3.Idx) :
    ∃ t : Fin cfg0.N, (cfg0.win 2).flush t = true ∧ i ∈ ((cfg0.win 2).blk t).view.set := by
  have hi0 : (i 0).val < 3200000 := (i 0).isLt
  have hi1 : (i 1).val < 3 := (i 1).isLt
  have hN : cfg0.N = 800 := N_0
  obtain ⟨t, ht⟩ : ∃ t : Fin cfg0.N, t.val = (i 0).val / 4000 := ⟨⟨(i 0).val / 4000, by rw [hN]; omega⟩, rfl⟩
  obtain ⟨-, -, e2, e3, -⟩ := idx_facts t
  refine ⟨t, flush0_2 t, ?_⟩
  rw [mem_blk]
  intro a
  match a with
  | ⟨0, _⟩ =>
    show win0_2.index t (0 : Fin 2) * 4000 ≤ (i 0).val ∧ (i 0).val < win0_2.index t (0 : Fin 2) * 4000 + 4000
    omega
  | ⟨1, _⟩ =>
    show win0_2.index t (1 : Fin 2) * 3 ≤ (i 1).val ∧ (i 1).val < win0_2.index t (1 : Fin 2) * 3 + 3
    omega

/-- The output array after the region. -/
theorem final (c : Dev nD) : (dats m 0 c).arrAt 2 cfg0.N = flat (xarr m c) (larr m c) :=
  (dats m 0 c).arrAt_eq_of_cover 2 _ (fun t _ => flushed_eq m c t) cover

/-! ## The host lines around the region -/

/-- The line before the region: the list view of x. -/
theorem xarr_eq (c : Dev nD) :
    xarr m c = shapeCast S3200000x18 (m ((c : Thread nD τ).loc main_arg0)) shapeCasts_S16x200000x18_S3200000x18 := by
  show StableHlo.after hostOps0 (fun b => m (c, b)) (Proc.devRef .tc main_v0) = _
  after_results; rfl

theorem larr_eq (c : Dev nD) : larr m c = m ((c : Thread nD τ).loc main_arg1) := V_main_arg1 m c

/-- The line after the region: the [16, 200000, 3] view of the output array. -/
theorem tail_eq (c : Dev nD) :
    Pipeline.afterTail₀ cfgs (dats m) 0 (V0 m) [hostOps1] c main_v2
      = shapeCast S16x200000x3 ((dats m 0 c).arrAt 2 cfg0.N) shapeCasts_S3200000x3_S16x200000x3 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = (dats m 0 c).arrAt 2 cfg0.N :=
    Pipeline.withArrays_arr spec0 launch0.win.arr_inj c (V0 m c) (fun w => (dats m 0 c).arrAt w cfg0.N) 2
  rw [hw]; rfl

/-! ## The result and the run -/

/-- The program's result: the specification of the arguments as launched. -/
theorem result_eq (c : Dev nD) :
    Pipeline.afterTail₀ cfgs (dats m) 0 (V0 m) [hostOps1] c main_v2
      = whole (m ((c : Thread nD τ).loc main_arg0)) (m ((c : Thread nD τ).loc main_arg1)) := by
  rw [tail_eq, final, xarr_eq, larr_eq]
  exact Cert.Bonds.whole_eq_shapeCast_flat _ _ shapeCasts_S16x200000x18_S3200000x18 shapeCasts_S3200000x3_S16x200000x3

/-- Every weakly fair execution of the idealized kernel program terminates with its result at the specification of
    the arguments and the arguments unchanged. -/
theorem run : θ_run defs (onTc (τ := τ) (main (F := Ideal))) ⟨m, fun _ => 0, ρ⟩ fun r => ∀ c : Dev nD,
      r.2.mem ((c.tc : Thread nD τ).loc main_v2) = whole (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelIdeal.RunValue

end
-- ==== Proof.RefValue.lean ====
/-
  The reference computes the specification.

  It cuts the nine position channels out of each row, views them as [atom, coordinate], takes the three cyclic
  differences atom p minus atom p+1, stacks them along the atom axis, squares, sums over the coordinate (from an
  initial zero), takes the square root and subtracts the broadcast length table. Read at an index (b, n, p), the
  stack's entry (p, k) is row[3p + k] - row[3 nxt(p) + k]; the sum from zero is the plain sum (0 + s = s), and the
  host's square root is the same function of an extended real as the kernel's.
-/
import proofs.«113861_j36472862277947_1_alg».proof.Proof.Gen.ReferenceIdeal.Run
import proofs.«113861_j36472862277947_1_alg».proof.Proof.Gen.ReferenceIdeal.Read
import proofs.«113861_j36472862277947_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.Bonds (chan nxt entry whole)

variable (x0 : (⟨S16x200000x18, .f32⟩ : BufTy).Contents (Elt Ideal)) (x1 : (⟨S3, .f32⟩ : BufTy).Contents (Elt Ideal))

/-! ## The positions as [atom, coordinate] -/

/-- Entry (a, k) of molecule (b, n)'s positions is channel 3a + k of its row. -/
theorem positions_apply (b : Fin 16) (n : Fin 200000) (a k : Fin 3) :
    val_main_v1 (F := Ideal) x0 (ix4 b n a k) = x0 (ix3 b n (chan a k)) := by
  have hb : b.val < 16 := b.isLt
  have hn : n.val < 200000 := n.isLt
  have ha : a.val < 3 := a.isLt
  have hk : k.val < 3 := k.isLt
  rw [val_main_v1_apply, val_main_v0_apply]
  refine congrArg x0 (funext fun d => Fin.ext ?_)
  match d with
  | ⟨0, _⟩ => show (((b.val * 200000 + n.val) * 3 + a.val) * 3 + k.val) / 1800000 = b.val; omega
  | ⟨1, _⟩ => show (((b.val * 200000 + n.val) * 3 + a.val) * 3 + k.val) / 9 % 200000 = n.val; omega
  | ⟨2, _⟩ => show (((b.val * 200000 + n.val) * 3 + a.val) * 3 + k.val) % 9 = 3 * a.val + k.val; omega

/-- Atom 0's coordinates, with the atom axis squeezed out. -/
theorem atom0_apply (b : Fin 16) (n : Fin 200000) (k : Fin 3) :
    val_main_v3 (F := Ideal) x0 (ix3 b n k) = x0 (ix3 b n (chan 0 k)) := by
  have hb : b.val < 16 := b.isLt
  have hn : n.val < 200000 := n.isLt
  have hk : k.val < 3 := k.isLt
  rw [val_main_v3_apply, val_main_v2_apply]
  refine Eq.trans (congrArg (val_main_v1 (F := Ideal) x0) (funext fun d => Fin.ext ?_)) (positions_apply x0 b n 0 k)
  match d with
  | ⟨0, _⟩ => show ((b.val * 200000 + n.val) * 3 + k.val) / 600000 = b.val; omega
  | ⟨1, _⟩ => show ((b.val * 200000 + n.val) * 3 + k.val) / 3 % 200000 = n.val; omega
  | ⟨2, _⟩ => show 0 = 0; rfl
  | ⟨3, _⟩ => show ((b.val * 200000 + n.val) * 3 + k.val) % 3 = k.val; omega

/-- Atom 1's. -/
theorem atom1_apply (b : Fin 16) (n : Fin 200000) (k : Fin 3) :
    val_main_v5 (F := Ideal) x0 (ix3 b n k) = x0 (ix3 b n (chan 1 k)) := by
  have hb : b.val < 16 := b.isLt
  have hn : n.val < 200000 := n.isLt
  have hk : k.val < 3 := k.isLt
  rw [val_main_v5_apply, val_main_v4_apply]
  refine Eq.trans (congrArg (val_main_v1 (F := Ideal) x0) (funext fun d => Fin.ext ?_)) (positions_apply x0 b n 1 k)
  match d with
  | ⟨0, _⟩ => show ((b.val * 200000 + n.val) * 3 + k.val) / 600000 = b.val; omega
  | ⟨1, _⟩ => show ((b.val * 200000 + n.val) * 3 + k.val) / 3 % 200000 = n.val; omega
  | ⟨2, _⟩ => show 1 + 0 = 1; rfl
  | ⟨3, _⟩ => show ((b.val * 200000 + n.val) * 3 + k.val) % 3 = k.val; omega

/-- Atom 2's. -/
theorem atom2_apply (b : Fin 16) (n : Fin 200000) (k : Fin 3) :
    val_main_v10 (F := Ideal) x0 (ix3 b n k) = x0 (ix3 b n (chan 2 k)) := by
  have hb : b.val < 16 := b.isLt
  have hn : n.val < 200000 := n.isLt
  have hk : k.val < 3 := k.isLt
  rw [val_main_v10_apply, val_main_v9_apply]
  refine Eq.trans (congrArg (val_main_v1 (F := Ideal) x0) (funext fun d => Fin.ext ?_)) (positions_apply x0 b n 2 k)
  match d with
  | ⟨0, _⟩ => show ((b.val * 200000 + n.val) * 3 + k.val) / 600000 = b.val; omega
  | ⟨1, _⟩ => show ((b.val * 200000 + n.val) * 3 + k.val) / 3 % 200000 = n.val; omega
  | ⟨2, _⟩ => show 2 + 0 = 2; rfl
  | ⟨3, _⟩ => show ((b.val * 200000 + n.val) * 3 + k.val) % 3 = k.val; omega

/-- The program cuts each atom out once per use; the second cuts are the first ones. -/
theorem atom1_again : val_main_v8 (F := Ideal) x0 = val_main_v5 (F := Ideal) x0 := rfl
theorem atom2_again : val_main_v13 (F := Ideal) x0 = val_main_v10 (F := Ideal) x0 := rfl
theorem atom0_again : val_main_v15 (F := Ideal) x0 = val_main_v3 (F := Ideal) x0 := rfl

/-! ## The three differences, stacked -/

theorem diff0_apply (b : Fin 16) (n : Fin 200000) (k : Fin 3) :
    val_main_v6 (F := Ideal) x0 (ix3 b n k) = x0 (ix3 b n (chan 0 k)) - x0 (ix3 b n (chan 1 k)) := by
  rw [val_main_v6_apply, atom0_apply, atom1_apply]; rfl

theorem diff1_apply (b : Fin 16) (n : Fin 200000) (k : Fin 3) :
    val_main_v11 (F := Ideal) x0 (ix3 b n k) = x0 (ix3 b n (chan 1 k)) - x0 (ix3 b n (chan 2 k)) := by
  rw [val_main_v11_apply, atom1_again, atom1_apply, atom2_apply]; rfl

theorem diff2_apply (b : Fin 16) (n : Fin 200000) (k : Fin 3) :
    val_main_v16 (F := Ideal) x0 (ix3 b n k) = x0 (ix3 b n (chan 2 k)) - x0 (ix3 b n (chan 0 k)) := by
  rw [val_main_v16_apply, atom2_again, atom0_again, atom2_apply, atom0_apply]; rfl

/-- The atom after 2 is 0. -/
theorem nxt_two : nxt (2 : Fin 3) = 0 := by decide
theorem nxt_one : nxt (1 : Fin 3) = 2 := by decide
theorem nxt_zero : nxt (0 : Fin 3) = 1 := by decide

/-- A stacked difference read at its only slot on the atom axis is the difference itself. -/
theorem unstack0 (b : Fin 16) (n : Fin 200000) (k : Fin 3) : idx_main_v17 (ix4 b n (0 : Fin 1) k) = ix3 b n k :=
  funext fun d => Fin.ext (by match d with | ⟨0, _⟩ => rfl | ⟨1, _⟩ => rfl | ⟨2, _⟩ => rfl)
theorem unstack1 (b : Fin 16) (n : Fin 200000) (k : Fin 3) : idx_main_v18 (ix4 b n (0 : Fin 1) k) = ix3 b n k :=
  funext fun d => Fin.ext (by match d with | ⟨0, _⟩ => rfl | ⟨1, _⟩ => rfl | ⟨2, _⟩ => rfl)
theorem unstack2 (b : Fin 16) (n : Fin 200000) (k : Fin 3) : idx_main_v19 (ix4 b n (0 : Fin 1) k) = ix3 b n k :=
  funext fun d => Fin.ext (by match d with | ⟨0, _⟩ => rfl | ⟨1, _⟩ => rfl | ⟨2, _⟩ => rfl)

/-- The stack at (b, n, p, k): difference p, coordinate k. The joined axis has one slot per piece, so slot p is
    piece p at its only slot. -/
theorem stack_apply (b : Fin 16) (n : Fin 200000) (p k : Fin 3) :
    val_main_v20 (F := Ideal) x0 (ix4 b n p k) = x0 (ix3 b n (chan p k)) - x0 (ix3 b n (chan (nxt p) k)) := by
  have h3 : p = 0 ∨ p = 1 ∨ p = 2 := by
    rcases p with ⟨_ | _ | _ | v, hv⟩
    · exact Or.inl rfl
    · exact Or.inr (Or.inl rfl)
    · exact Or.inr (Or.inr rfl)
    · omega
  unfold val_main_v20
  rcases h3 with rfl | rfl | rfl
  · refine (concatenate_apply_piece (2 : Fin S16x200000x3x3.rank) ([⟨S16x200000x1x3, val_main_v17 (F := Ideal) x0⟩, ⟨S16x200000x1x3, val_main_v18 (F := Ideal) x0⟩, ⟨S16x200000x1x3, val_main_v19 (F := Ideal) x0⟩] : List ((s : Shape) × (s.Idx → Elt Ideal .f32))) concatenates_S16x200000x1x3_S16x200000x1x3_S16x200000x1x3_S16x200000x3x3_d2
      (ix4 b n (0 : Fin 3) k) 0 (by show 0 < 3; omega) S16x200000x1x3 (val_main_v17 (F := Ideal) x0) rfl rfl 0 rfl (ix4 b n (0 : Fin 1) k)
      (fun d hd => by match d with
        | ⟨0, _⟩ => rfl
        | ⟨1, _⟩ => rfl
        | ⟨2, _⟩ => exact absurd rfl hd
        | ⟨3, _⟩ => rfl) rfl).trans ?_
    rw [val_main_v17_apply, unstack0, diff0_apply, nxt_zero]
  · refine (concatenate_apply_piece (2 : Fin S16x200000x3x3.rank) ([⟨S16x200000x1x3, val_main_v17 (F := Ideal) x0⟩, ⟨S16x200000x1x3, val_main_v18 (F := Ideal) x0⟩, ⟨S16x200000x1x3, val_main_v19 (F := Ideal) x0⟩] : List ((s : Shape) × (s.Idx → Elt Ideal .f32))) concatenates_S16x200000x1x3_S16x200000x1x3_S16x200000x1x3_S16x200000x3x3_d2
      (ix4 b n (1 : Fin 3) k) 1 (by show 1 < 3; omega) S16x200000x1x3 (val_main_v18 (F := Ideal) x0) rfl rfl 1 rfl (ix4 b n (0 : Fin 1) k)
      (fun d hd => by match d with
        | ⟨0, _⟩ => rfl
        | ⟨1, _⟩ => rfl
        | ⟨2, _⟩ => exact absurd rfl hd
        | ⟨3, _⟩ => rfl) rfl).trans ?_
    rw [val_main_v18_apply, unstack1, diff1_apply, nxt_one]
  · refine (concatenate_apply_piece (2 : Fin S16x200000x3x3.rank) ([⟨S16x200000x1x3, val_main_v17 (F := Ideal) x0⟩, ⟨S16x200000x1x3, val_main_v18 (F := Ideal) x0⟩, ⟨S16x200000x1x3, val_main_v19 (F := Ideal) x0⟩] : List ((s : Shape) × (s.Idx → Elt Ideal .f32))) concatenates_S16x200000x1x3_S16x200000x1x3_S16x200000x1x3_S16x200000x3x3_d2
      (ix4 b n (2 : Fin 3) k) 2 (by show 2 < 3; omega) S16x200000x1x3 (val_main_v19 (F := Ideal) x0) rfl rfl 2 rfl (ix4 b n (0 : Fin 1) k)
      (fun d hd => by match d with
        | ⟨0, _⟩ => rfl
        | ⟨1, _⟩ => rfl
        | ⟨2, _⟩ => exact absurd rfl hd
        | ⟨3, _⟩ => rfl) rfl).trans ?_
    rw [val_main_v19_apply, unstack2, diff2_apply, nxt_two]

/-! ## The result -/

/-- The reference's result is the specification of its arguments. -/
theorem result_eq_whole : val_main_v26 (F := Ideal) x0 x1 = whole x0 x1 := by
  funext i
  obtain ⟨b, n, p, rfl⟩ : ∃ (b : Fin 16) (n : Fin 200000) (p : Fin 3), i = ix3 b n p := ⟨i 0, i 1, i 2, eq_ix3 i⟩
  rw [val_main_v26_apply, val_main_v23_apply, val_main_v22_apply, val_main_v25_apply, val_main_v24_apply]
  change Ideal.sqrt (Ideal.ofBits .f32 0x00000000#32 + ∑ k : Fin 3, val_main_v21 (F := Ideal) x0 (idx_main_v22 (ix3 b n p) k))
      - x1 (idx_main_v24 (idx_main_v25 (ix3 b n p)))
    = entry (fun ch => x0 (ix3 b n ch)) x1 p
  unfold entry Cert.Bonds.dist
  refine congrArg₂ (· - ·) (congrArg Ideal.sqrt ?_) (congrArg x1 (funext fun d => Fin.ext (by match d with | ⟨0, _⟩ => rfl)))
  rw [Ideal.ofBits_zero_f32, zero_add]
  refine Finset.sum_congr rfl fun (k : Fin 3) _ => ?_
  have e : idx_main_v22 (ix3 b n p) k = ix4 b n p k := funext fun d => Fin.ext (by match d with | ⟨0, _⟩ => rfl | ⟨1, _⟩ => rfl | ⟨2, _⟩ => rfl | ⟨3, _⟩ => rfl)
  rw [e, val_main_v21_apply, stack_apply]; rfl

end Cert.ReferenceIdeal.RefValue

end
-- ==== Proof.lean ====
/-
  The certificate of the water-geometry kernel against its reference.

  Both programs compute, for each of the 16 x 200000 molecules (a row of 18 channels, atom p's position at channels
  3p .. 3p + 2) and each p < 3,

      sqrt (sum over k < 3 of (row[3p + k] - row[3 nxt(p) + k])^2) - l[p],      nxt = 0 -> 1 -> 2 -> 0,

  the deviation of the triangle's p-th side from its tabulated length (Proof/Spec.lean: `whole`).

  The kernel views the molecules as one list of 3 200 000 rows and visits it in 800 blocks of 4000 rows; on a block
  it cuts out the three atoms, forms the three differences, sums each squared difference along the coordinate by a
  lane sum, takes the root, and stores the three results as the three columns of the output block
  (Proof/KernelBlock.lean); the blocks tile the output list, which a last host line views as [16, 200000, 3]
  (Proof/KernelValue.lean). The reference forms the same differences by slicing a [.., 3, 3] view, stacks them, and
  reduces from an initial zero (Proof/RefValue.lean). The two sums have the same three terms in the same order, the
  two square roots are the same function of an extended real, and 0 + s = s; nothing else is needed, so the
  precondition (finite inputs) is not used. The frames of the two kernel programs are the generated ones; the
  reference's is its run with the result dropped; no operation was rewritten by the idealization, so the
  `preserves` conjunct is trivial.
-/
import proofs.«113861_j36472862277947_1_alg».proof.Defs
import proofs.«113861_j36472862277947_1_alg».proof.Proof.Gen.Kernel
import proofs.«113861_j36472862277947_1_alg».proof.Proof.Gen.Kernel.Skeleton
import proofs.«113861_j36472862277947_1_alg».proof.Proof.Gen.Kernel.Launch
import proofs.«113861_j36472862277947_1_alg».proof.Proof.Gen.Kernel.Points
import proofs.«113861_j36472862277947_1_alg».proof.Proof.Gen.Kernel.Frame
import proofs.«113861_j36472862277947_1_alg».proof.Proof.Gen.KernelIdeal
import proofs.«113861_j36472862277947_1_alg».proof.Proof.Gen.KernelIdeal.Skeleton
import proofs.«113861_j36472862277947_1_alg».proof.Proof.Gen.KernelIdeal.Launch
import proofs.«113861_j36472862277947_1_alg».proof.Proof.Gen.KernelIdeal.Points
import proofs.«113861_j36472862277947_1_alg».proof.Proof.Gen.KernelIdeal.Frame
import proofs.«113861_j36472862277947_1_alg».proof.Proof.Gen.ReferenceIdeal
import proofs.«113861_j36472862277947_1_alg».proof.Proof.Gen.ReferenceIdeal.Run
import proofs.«113861_j36472862277947_1_alg».proof.Proof.Gen.ReferenceIdeal.Read
import proofs.«113861_j36472862277947_1_alg».proof.Proof.Gen.Pre_finite_inputs
import proofs.«113861_j36472862277947_1_alg».proof.Proof.Spec
import proofs.«113861_j36472862277947_1_alg».proof.Proof.KernelBlock
import proofs.«113861_j36472862277947_1_alg».proof.Proof.KernelValue
import proofs.«113861_j36472862277947_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on x and l, the kernel program ends with its result at the specification of (x, l), and
    the reference with its result at the same specification of its own, equal, arguments. -/
theorem algebraic : Cert.algebraic_KernelIdeal_ReferenceIdeal := by
  intro m ρ m' ρ' _ hagree
  refine ⟨fun c => Cert.Bonds.whole
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq_whole, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
